-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S10000x128 : Shape := ⟨2, ![10000, 128]⟩
abbrev S690000x128 : Shape := ⟨2, ![690000, 128]⟩
abbrev S1x128 : Shape := ⟨2, ![1, 128]⟩

abbrev nBuf : Space → Nat
  | .hbm => 108
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x640000, .i32⟩
  | .hbm, ⟨8, _⟩ => ⟨S640000, .i32⟩
  | .hbm, ⟨9, _⟩ => ⟨S690000, .i32⟩
  | .hbm, ⟨10, _⟩ => ⟨S1x640000, .i32⟩
  | .hbm, ⟨11, _⟩ => ⟨S640000, .i32⟩
  | .hbm, ⟨12, _⟩ => ⟨S690000, .i32⟩
  | .hbm, ⟨13, _⟩ => ⟨S_, .f32⟩
  | .hbm, ⟨14, _⟩ => ⟨S690000, .f32⟩
  | .hbm, ⟨15, _⟩ => ⟨S_, .f32⟩
  | .hbm, ⟨16, _⟩ => ⟨S50000, .f32⟩
  | .hbm, ⟨17, _⟩ => ⟨S690000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S_, .i32⟩
  | .hbm, ⟨29, _⟩ => ⟨S690000, .i32⟩
  | .hbm, ⟨30, _⟩ => ⟨S690000, .i1⟩
  | .hbm, ⟨31, _⟩ => ⟨S_, .i32⟩
  | .hbm, ⟨32, _⟩ => ⟨S690000, .i32⟩
  | .hbm, ⟨33, _⟩ => ⟨S690000, .i32⟩
  | .hbm, ⟨34, _⟩ => ⟨S690000, .i32⟩
  | .hbm, ⟨35, _⟩ => ⟨S690000x1, .i32⟩
  | .hbm, ⟨36, _⟩ => ⟨S690000, .f32⟩
  | .hbm, ⟨37, _⟩ => ⟨S_, .i32⟩
  | .hbm, ⟨38, _⟩ => ⟨S690000, .i32⟩
  | .hbm, ⟨39, _⟩ => ⟨S690000, .i1⟩
  | .hbm, ⟨40, _⟩ => ⟨S_, .i32⟩
  | .hbm, ⟨41, _⟩ => ⟨S690000, .i32⟩
  | .hbm, ⟨42, _⟩ => ⟨S690000, .i32⟩
  | .hbm, ⟨43, _⟩ => ⟨S690000, .i32⟩
  | .hbm, ⟨44, _⟩ => ⟨S690000x1, .i32⟩
  | .hbm, ⟨45, _⟩ => ⟨S690000, .f32⟩
  | .hbm, ⟨46, _⟩ => ⟨S690000, .f32⟩
  | .hbm, ⟨47, _⟩ => ⟨S_, .i32⟩
  | .hbm, ⟨48, _⟩ => ⟨S690000, .i32⟩
  | .hbm, ⟨49, _⟩ => ⟨S690000, .i1⟩
  | .hbm, ⟨50, _⟩ => ⟨S_, .i32⟩
  | .hbm, ⟨51, _⟩ => ⟨S690000, .i32⟩
  | .hbm, ⟨52, _⟩ => ⟨S690000, .i32⟩
  | .hbm, ⟨53, _⟩ => ⟨S690000, .i32⟩
  | .hbm, ⟨54, _⟩ => ⟨S690000x1, .i32⟩
  | .hbm, ⟨55, _⟩ => ⟨S690000x128, .f32⟩
  | .hbm, ⟨56, _⟩ => ⟨S690000x1, .f32⟩
  | .hbm, ⟨57, _⟩ => ⟨S690000x128, .f32⟩
  | .hbm, ⟨58, _⟩ => ⟨S690000x128, .f32⟩
  | .hbm, ⟨59, _⟩ => ⟨S_, .f32⟩
  | .hbm, ⟨60, _⟩ => ⟨S50000x128, .f32⟩
  | .hbm, ⟨61, _⟩ => ⟨S690000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S690000, .i32⟩
  | .hbm, ⟨72, _⟩ => ⟨S690000, .i1⟩
  | .hbm, ⟨73, _⟩ => ⟨S_, .i32⟩
  | .hbm, ⟨74, _⟩ => ⟨S690000, .i32⟩
  | .hbm, ⟨75, _⟩ => ⟨S690000, .i32⟩
  | .hbm, ⟨76, _⟩ => ⟨S690000, .i32⟩
  | .hbm, ⟨77, _⟩ => ⟨S690000x1, .i32⟩
  | .hbm, ⟨78, _⟩ => ⟨S690000, .f32⟩
  | .hbm, ⟨79, _⟩ => ⟨S_, .i32⟩
  | .hbm, ⟨80, _⟩ => ⟨S690000, .i32⟩
  | .hbm, ⟨81, _⟩ => ⟨S690000, .i1⟩
  | .hbm, ⟨82, _⟩ => ⟨S_, .i32⟩
  | .hbm, ⟨83, _⟩ => ⟨S690000, .i32⟩
  | .hbm, ⟨84, _⟩ => ⟨S690000, .i32⟩
  | .hbm, ⟨85, _⟩ => ⟨S690000, .i32⟩
  | .hbm, ⟨86, _⟩ => ⟨S690000x1, .i32⟩
  | .hbm, ⟨87, _⟩ => ⟨S690000, .f32⟩
  | .hbm, ⟨88, _⟩ => ⟨S690000, .f32⟩
  | .hbm, ⟨89, _⟩ => ⟨S_, .i32⟩
  | .hbm, ⟨90, _⟩ => ⟨S690000, .i32⟩
  | .hbm, ⟨91, _⟩ => ⟨S690000, .i1⟩
  | .hbm, ⟨92, _⟩ => ⟨S_, .i32⟩
  | .hbm, ⟨93, _⟩ => ⟨S690000, .i32⟩
  | .hbm, ⟨94, _⟩ => ⟨S690000, .i32⟩
  | .hbm, ⟨95, _⟩ => ⟨S690000, .i32⟩
  | .hbm, ⟨96, _⟩ => ⟨S690000x1, .i32⟩
  | .hbm, ⟨97, _⟩ => ⟨S690000x128, .f32⟩
  | .hbm, ⟨98, _⟩ => ⟨S690000x1, .f32⟩
  | .hbm, ⟨99, _⟩ => ⟨S690000x128, .f32⟩
  | .hbm, ⟨100, _⟩ => ⟨S690000x128, .f32⟩
  | .hbm, ⟨101, _⟩ => ⟨S_, .f32⟩
  | .hbm, ⟨102, _⟩ => ⟨S50000x128, .f32⟩
  | .hbm, ⟨103, _⟩ => ⟨S690000x1, .i32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  scatter_S50000_S690000x1_S690000_n_0_0_1_wf : ScatterDims.WF S50000 S690000x1 S690000 [] [0] [0] 1
  dot_S10000x128_S128x128_S10000x128_1_0_0_1_n_n_wf : DotDims.WF S10000x128 S128x128 S10000x128 [1] [0] [0] [1] [] []
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x640000, .i32⟩
  | .hbm, ⟨8, _⟩ => ⟨S640000, .i32⟩
  | .hbm, ⟨9, _⟩ => ⟨S690000, .i32⟩
  | .hbm, ⟨10, _⟩ => ⟨S1x640000, .i32⟩
  | .hbm, ⟨11, _⟩ => ⟨S640000, .i32⟩
  | .hbm, ⟨12, _⟩ => ⟨S690000, .i32⟩
  | .hbm, ⟨13, _⟩ => ⟨S_, .f32⟩
  | .hbm, ⟨14, _⟩ => ⟨S690000, .f32⟩
  | .hbm, ⟨15, _⟩ => ⟨S_, .f32⟩
  | .hbm, ⟨16, _⟩ => ⟨S50000, .f32⟩
  | .hbm, ⟨17, _⟩ => ⟨S690000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S_, .i32⟩
  | .hbm, ⟨29, _⟩ => ⟨S690000, .i32⟩
  | .hbm, ⟨30, _⟩ => ⟨S690000, .i1⟩
  | .hbm, ⟨31, _⟩ => ⟨S_, .i32⟩
  | .hbm, ⟨32, _⟩ => ⟨S690000, .i32⟩
  | .hbm, ⟨33, _⟩ => ⟨S690000, .i32⟩
  | .hbm, ⟨34, _⟩ => ⟨S690000, .i32⟩
  | .hbm, ⟨35, _⟩ => ⟨S690000x1, .i32⟩
  | .hbm, ⟨36, _⟩ => ⟨S690000, .f32⟩
  | .hbm, ⟨37, _⟩ => ⟨S_, .i32⟩
  | .hbm, ⟨38, _⟩ => ⟨S690000, .i32⟩
  | .hbm, ⟨39, _⟩ => ⟨S690000, .i1⟩
  | .hbm, ⟨40, _⟩ => ⟨S_, .i32⟩
  | .hbm, ⟨41, _⟩ => ⟨S690000, .i32⟩
  | .hbm, ⟨42, _⟩ => ⟨S690000, .i32⟩
  | .hbm, ⟨43, _⟩ => ⟨S690000, .i32⟩
  | .hbm, ⟨44, _⟩ => ⟨S690000x1, .i32⟩
  | .hbm, ⟨45, _⟩ => ⟨S690000, .f32⟩
  | .hbm, ⟨46, _⟩ => ⟨S690000, .f32⟩
  | .hbm, ⟨47, _⟩ => ⟨S_, .i32⟩
  | .hbm, ⟨48, _⟩ => ⟨S690000, .i32⟩
  | .hbm, ⟨49, _⟩ => ⟨S690000, .i1⟩
  | .hbm, ⟨50, _⟩ => ⟨S_, .i32⟩
  | .hbm, ⟨51, _⟩ => ⟨S690000, .i32⟩
  | .hbm, ⟨52, _⟩ => ⟨S690000, .i32⟩
  | .hbm, ⟨53, _⟩ => ⟨S690000, .i32⟩
  | .hbm, ⟨54, _⟩ => ⟨S690000x1, .i32⟩
  | .hbm, ⟨55, _⟩ => ⟨S690000x128, .f32⟩
  | .hbm, ⟨56, _⟩ => ⟨S690000x1, .f32⟩
  | .hbm, ⟨57, _⟩ => ⟨S690000x128, .f32⟩
  | .hbm, ⟨58, _⟩ => ⟨S690000x128, .f32⟩
  | .hbm, ⟨59, _⟩ => ⟨S_, .f32⟩
  | .hbm, ⟨60, _⟩ => ⟨S50000x128, .f32⟩
  | .hbm, ⟨61, _⟩ => ⟨S690000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S690000, .i32⟩
  | .hbm, ⟨72, _⟩ => ⟨S690000, .i1⟩
  | .hbm, ⟨73, _⟩ => ⟨S_, .i32⟩
  | .hbm, ⟨74, _⟩ => ⟨S690000, .i32⟩
  | .hbm, ⟨75, _⟩ => ⟨S690000, .i32⟩
  | .hbm, ⟨76, _⟩ => ⟨S690000, .i32⟩
  | .hbm, ⟨77, _⟩ => ⟨S690000x1, .i32⟩
  | .hbm, ⟨78, _⟩ => ⟨S690000, .f32⟩
  | .hbm, ⟨79, _⟩ => ⟨S_, .i32⟩
  | .hbm, ⟨80, _⟩ => ⟨S690000, .i32⟩
  | .hbm, ⟨81, _⟩ => ⟨S690000, .i1⟩
  | .hbm, ⟨82, _⟩ => ⟨S_, .i32⟩
  | .hbm, ⟨83, _⟩ => ⟨S690000, .i32⟩
  | .hbm, ⟨84, _⟩ => ⟨S690000, .i32⟩
  | .hbm, ⟨85, _⟩ => ⟨S690000, .i32⟩
  | .hbm, ⟨86, _⟩ => ⟨S690000x1, .i32⟩
  | .hbm, ⟨87, _⟩ => ⟨S690000, .f32⟩
  | .hbm, ⟨88, _⟩ => ⟨S690000, .f32⟩
  | .hbm, ⟨89, _⟩ => ⟨S_, .i32⟩
  | .hbm, ⟨90, _⟩ => ⟨S690000, .i32⟩
  | .hbm, ⟨91, _⟩ => ⟨S690000, .i1⟩
  | .hbm, ⟨92, _⟩ => ⟨S_, .i32⟩
  | .hbm, ⟨93, _⟩ => ⟨S690000, .i32⟩
  | .hbm, ⟨94, _⟩ => ⟨S690000, .i32⟩
  | .hbm, ⟨95, _⟩ => ⟨S690000, .i32⟩
  | .hbm, ⟨96, _⟩ => ⟨S690000x1, .i32⟩
  | .hbm, ⟨97, _⟩ => ⟨S690000x128, .f32⟩
  | .hbm, ⟨98, _⟩ => ⟨S690000x1, .f32⟩
  | .hbm, ⟨99, _⟩ => ⟨S690000x128, .f32⟩
  | .hbm, ⟨100, _⟩ => ⟨S690000x128, .f32⟩
  | .hbm, ⟨101, _⟩ => ⟨S_, .f32⟩
  | .hbm, ⟨102, _⟩ => ⟨S50000x128, .f32⟩
  | .hbm, ⟨103, _⟩ => ⟨S690000x1, .i32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S690000x1_S690000_n_0_0_1_wf : ScatterDims.WF S50000 S690000x1 S690000 [] [0] [0] 1
  dot_S50000x128_S128x128_S50000x128_1_0_0_1_n_n_wf : DotDims.WF S50000x128 S128x128 S50000x128 [1] [0] [0] [1] [] []
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

class Facts : Prop extends Facts₀ where

variable [Facts]
-- ==== Proof.RowsTimes.lean ====
/-
  The dense product both programs compute, as one function of the two operand arrays on the extended reals:
  entry (r, q) of rows-times-weight is the sum over the 128 contracted positions k of X(r, k) · W(k, q).
  (Addition of extended reals is commutative and associative, so the sum needs no order.)
-/
import Idealize.ShloMosaic.Lib.ValueIdx

noncomputable section

open scoped BigOperators

namespace Cert.Dense

open Idealize.ShloMosaic Idealize.ShloMosaic.ValueIdx

/-- Rows times weight: entry (r, q) is the sum over k of X(r, k) · W(k, q), on the extended reals. -/
def rowsTimes (X : (⟨2, ![50000, 128]⟩ : Shape).Idx → EReal) (Wm : (⟨2, ![128, 128]⟩ : Shape).Idx → EReal) :
    (⟨2, ![50000, 128]⟩ : Shape).Idx → EReal :=
  fun i => ∑ k : Fin 128, X (ix2 (n0 := 50000) (n1 := 128) ⟨(i 0).val, (i 0).isLt⟩ k)
    * Wm (ix2 (n0 := 128) (n1 := 128) k ⟨(i 1).val, (i 1).isLt⟩)

end Cert.Dense

end
-- ==== Proof.MatBlock0.lean ====
/-
  Region 0 (the first dense product h = x · W1), read as a value at the ideal instance.

  The region walks the 50000 rows of its left operand in five blocks of 10000 rows; at each block the body
  multiplies the 10000 × 128 block of rows by the whole 128 × 128 weight into a zero accumulator (the narrowing
  of both operands to bf16 on the way in is the identity on extended reals) and writes the 10000 × 128 product
  back as the same block of rows of the result. So entry (r, q) of the result is ∑ₖ X(r, k) · W(k, q) with X and W
  the two operand arrays as the region finds them: the rows' blocks tile the array, and block t's entry (p, q)
  is row t · 10000 + p of that one function.
-/
import proofs.«135767_j65000035058075_1_alg».proof.Proof.Gen.KernelIdeal.Frame
import proofs.«135767_j65000035058075_1_alg».proof.Proof.RowsTimes
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense0

open Cert.KernelIdeal Cert.KernelIdeal.Gen Idealize.ShloMosaic Idealize.ShloMosaic.TcCoe Idealize.SL.Sem
open Idealize.ShloMosaic.ValueIdx
open Idealize.ShloMosaic.Pipeline (Dat)
open Cert.Dense (rowsTimes)

/-! ## The block product at an index -/

/-- The product's left operand index keeps the output's row … -/
theorem lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and runs over the contracted axis in its column; -/
theorem lhs_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- the right operand index runs over the contracted axis in its row … -/
theorem rhs_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- … and keeps the output's column. -/
theorem rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores, at entry (p, q) of the block: the sum over k of the row block's (p, k) times the weight's (k, q). -/
theorem pay_apply (x0 : Vec Ideal S10000x128 .f32) (x1 : Vec Ideal S128x128 .f32) (j : S10000x128.Idx) :
    k0_pay1 (F := Ideal) x0 x1 j
      = ∑ k : Fin 128, x0 (ix2 (n0 := 10000) (n1 := 128) ⟨(j 0).val, (j 0).isLt⟩ k)
          * x1 (ix2 (n0 := 128) (n1 := 128) k ⟨(j 1).val, (j 1).isLt⟩) := by
  unfold k0_pay1
  dsimp only
  refine (Ideal.matmul_constant_zero_apply dot_S10000x128_S128x128_S10000x128_1_0_0_1_n_n none (truncf .bf16 x0 bitsLt_bf16_f32) (truncf .bf16 x1 bitsLt_bf16_f32) j).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx j ((contrEquiv1 dot_S10000x128_S128x128_S10000x128_1_0_0_1_n_n 128 rfl rfl).symm k)
      = ix2 (n0 := 10000) (n1 := 128) ⟨(j 0).val, (j 0).isLt⟩ k := funext fun a => Fin.ext (by
    match a with
    | ⟨0, _⟩ => exact lhs_row _ _
    | ⟨1, _⟩ => exact (lhs_col _ _).trans hk)
  have er : dot_S10000x128_S128x128_S10000x128_1_0_0_1_n_n.rhsIdx j ((contrEquiv1 dot_S10000x128_S128x128_S10000x128_1_0_0_1_n_n 128 rfl rfl).symm k)
      = ix2 (n0 := 128) (n1 := 128) k ⟨(j 1).val, (j 1).isLt⟩ := funext fun a => Fin.ext (by
    match a with
    | ⟨0, _⟩ => exact (rhs_row _ _).trans hk
    | ⟨1, _⟩ => exact rhs_col _ _)
  show x0 (dot_S10000x128_S128x128_S10000x128_1_0_0_1_n_n.lhsIdx j _) * x1 (dot_S10000x128_S128x128_S10000x128_1_0_0_1_n_n.rhsIdx j _) = _
  rw [el, er]

/-! ## From the blocks to the array -/

section Array

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the five points: the rows' block of the left operand and of the result is the
    point's own number, every column block and the weight's block is block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the rows-times-weight function of the two operand arrays. -/
theorem flushed_eq (c : Dev nD) (t : Fin cfg0.N) :
    (dat0 V c).flushed 2 t
      = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := index_facts t
  funext j
  show k0_pay1 (F := Ideal) (iblk0 V c 0 t) (iblk0 V c 1 t) j
    = rowsTimes (V c main_arg0) (V c main_arg2) (((cfg0.win 2).blk t).view.emb j)
  refine (pay_apply (iblk0 V c 0 t) (iblk0 V c 1 t) j).trans ?_
  unfold rowsTimes
  refine Finset.sum_congr rfl fun k _ => ?_
  have hj0 : (j 0).val < 10000 := (j 0).isLt
  have hj1 : (j 1).val < 128 := (j 1).isLt
  have hk : k.val < 128 := k.isLt
  have h0 : iblk0 V c 0 t (ix2 (n0 := 10000) (n1 := 128) ⟨(j 0).val, (j 0).isLt⟩ k)
      = V c main_arg0 (ix2 (n0 := 50000) (n1 := 128) ⟨((((cfg0.win 2).blk t).view.emb j) 0).val, ((((cfg0.win 2).blk t).view.emb j) 0).isLt⟩ k) := by
    show V c main_arg0 (((cfg0.win 0).blk t).view.emb (ix2 (n0 := 10000) (n1 := 128) ⟨(j 0).val, (j 0).isLt⟩ k)) = _
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : iblk0 V c 1 t (ix2 (n0 := 128) (n1 := 128) k ⟨(j 1).val, (j 1).isLt⟩)
      = V c main_arg2 (ix2 (n0 := 128) (n1 := 128) k ⟨((((cfg0.win 2).blk t).view.emb j) 1).val, ((((cfg0.win 2).blk t).view.emb j) 1).isLt⟩) := by
    show V c main_arg2 (((cfg0.win 1).blk t).view.emb (ix2 (n0 := 128) (n1 := 128) k ⟨(j 1).val, (j 1).isLt⟩)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the result array is in point t's block iff each coordinate is in the block's range on its axis. -/
theorem mem_block (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v15).slice (win0_2.rect t)).set ↔ _
  rw [View.set_slice_whole, Rect.mem_set_unit]
  exact Iff.rfl

/-- Every entry of the result is in some point's block: row r is in block r / 10000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, e4, e5⟩ := index_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The result array after the region: rows times weight of the two operand arrays as the region finds them. -/
theorem product_array (c : Dev nD) :
    (dat0 V c).arrAt 2 cfg0.N = rowsTimes (V c main_arg0) (V c main_arg2) :=
  (dat0 V c).arrAt_eq_of_cover 2 _ (fun t _ => flushed_eq V c t) covered

end Array

end Cert.KernelIdeal.Dense0

end
-- ==== Proof.MatBlock1.lean ====
/-
  Region 1 (the second dense product, relu(layer 1) · W2), read as a value at the ideal instance: the same kernel as region 0
  on other operands. Five blocks of 10000 rows of the left operand, each multiplied by the whole 128 × 128 weight into a
  zero accumulator (the cast of the row block to its own shape and the narrowing of both operands to bf16 are the identity
  on extended reals), written back as the same block of rows: entry (r, q) of the result is ∑ₖ X(r, k) · W(k, q).
-/
import proofs.«135767_j65000035058075_1_alg».proof.Proof.Gen.KernelIdeal.Frame
import proofs.«135767_j65000035058075_1_alg».proof.Proof.RowsTimes
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat)
open Cert.Dense (rowsTimes)

/-! ## The block product at an index -/

/-- The product's left operand index keeps the output's row … -/
theorem lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and runs over the contracted axis in its column; -/
theorem lhs_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- the right operand index runs over the contracted axis in its row … -/
theorem rhs_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- … and keeps the output's column. -/
theorem rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores, at entry (p, q) of the block: the sum over k of the row block's (p, k) times the weight's (k, q). -/
theorem pay_apply (x0 : Vec Ideal S10000x128 .f32) (x1 : Vec Ideal S128x128 .f32) (j : S10000x128.Idx) :
    k1_pay1 (F := Ideal) x0 x1 j
      = ∑ k : Fin 128, x0 (ix2 (n0 := 10000) (n1 := 128) ⟨(j 0).val, (j 0).isLt⟩ k)
          * x1 (ix2 (n0 := 128) (n1 := 128) k ⟨(j 1).val, (j 1).isLt⟩) := by
  unfold k1_pay1
  dsimp only
  rw [shapeCast_self]
  refine (Ideal.matmul_constant_zero_apply dot_S10000x128_S128x128_S10000x128_1_0_0_1_n_n none (truncf .bf16 x0 bitsLt_bf16_f32) (truncf .bf16 x1 bitsLt_bf16_f32) j).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx j ((contrEquiv1 dot_S10000x128_S128x128_S10000x128_1_0_0_1_n_n 128 rfl rfl).symm k)
      = ix2 (n0 := 10000) (n1 := 128) ⟨(j 0).val, (j 0).isLt⟩ k := funext fun a => Fin.ext (by
    match a with
    | ⟨0, _⟩ => exact lhs_row _ _
    | ⟨1, _⟩ => exact (lhs_col _ _).trans hk)
  have er : dot_S10000x128_S128x128_S10000x128_1_0_0_1_n_n.rhsIdx j ((contrEquiv1 dot_S10000x128_S128x128_S10000x128_1_0_0_1_n_n 128 rfl rfl).symm k)
      = ix2 (n0 := 128) (n1 := 128) k ⟨(j 1).val, (j 1).isLt⟩ := funext fun a => Fin.ext (by
    match a with
    | ⟨0, _⟩ => exact (rhs_row _ _).trans hk
    | ⟨1, _⟩ => exact rhs_col _ _)
  show x0 (dot_S10000x128_S128x128_S10000x128_1_0_0_1_n_n.lhsIdx j _) * x1 (dot_S10000x128_S128x128_S10000x128_1_0_0_1_n_n.rhsIdx j _) = _
  rw [el, er]

/-! ## From the blocks to the array -/

section Array

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the five points: the rows' block of the left operand and of the result is the
    point's own number, every column block and the weight's block is block 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the rows-times-weight function of the two operand arrays. -/
theorem flushed_eq (c : Dev nD) (t : Fin cfg1.N) :
    (dat1 V c).flushed 2 t
      = ((cfg1.win 2).blk t).view.read (Elt Ideal) (rowsTimes (V c main_v47) (V c main_arg4)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x128) zero_offsets]
  obtain ⟨e0, e1, e2, e3, e4, e5⟩ := index_facts t
  funext j
  show k1_pay1 (F := Ideal) (iblk1 V c 0 t) (iblk1 V c 1 t) j
    = rowsTimes (V c main_v47) (V c main_arg4) (((cfg1.win 2).blk t).view.emb j)
  refine (pay_apply (iblk1 V c 0 t) (iblk1 V c 1 t) j).trans ?_
  unfold rowsTimes
  refine Finset.sum_congr rfl fun k _ => ?_
  have hj0 : (j 0).val < 10000 := (j 0).isLt
  have hj1 : (j 1).val < 128 := (j 1).isLt
  have hk : k.val < 128 := k.isLt
  have h0 : iblk1 V c 0 t (ix2 (n0 := 10000) (n1 := 128) ⟨(j 0).val, (j 0).isLt⟩ k)
      = V c main_v47 (ix2 (n0 := 50000) (n1 := 128) ⟨((((cfg1.win 2).blk t).view.emb j) 0).val, ((((cfg1.win 2).blk t).view.emb j) 0).isLt⟩ k) := by
    show V c main_v47 (((cfg1.win 0).blk t).view.emb (ix2 (n0 := 10000) (n1 := 128) ⟨(j 0).val, (j 0).isLt⟩ k)) = _
    refine congrArg (V c main_v47) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : iblk1 V c 1 t (ix2 (n0 := 128) (n1 := 128) k ⟨(j 1).val, (j 1).isLt⟩)
      = V c main_arg4 (ix2 (n0 := 128) (n1 := 128) k ⟨((((cfg1.win 2).blk t).view.emb j) 1).val, ((((cfg1.win 2).blk t).view.emb j) 1).isLt⟩) := by
    show V c main_arg4 (((cfg1.win 1).blk t).view.emb (ix2 (n0 := 128) (n1 := 128) k ⟨(j 1).val, (j 1).isLt⟩)) = _
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]

/-- An index of the result array is in point t's block iff each coordinate is in the block's range on its axis. -/
theorem mem_block (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v48).slice (win1_2.rect t)).set ↔ _
  rw [View.set_slice_whole, Rect.mem_set_unit]
  exact Iff.rfl

/-- Every entry of the result is in some point's block: row r is in block r / 10000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨-, -, -, -, e4, e5⟩ := index_facts t
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- The result array after the region: rows times weight of the two operand arrays as the region finds them. -/
theorem product_array (c : Dev nD) :
    (dat1 V c).arrAt 2 cfg1.N = rowsTimes (V c main_v47) (V c main_arg4) :=
  (dat1 V c).arrAt_eq_of_cover 2 _ (fun t _ => flushed_eq V c t) covered

end Array

end Cert.KernelIdeal.Dense1

end
-- ==== Proof.Spec.lean ====
/-
  The graph-convolution network both programs compute, as one function of the six argument arrays, with the dense
  product left as a parameter `mm`.

  Edges: the edge list's two rows with the 50000 self-loops appended are the sources `src` and the destinations `dst`
  (690000 each). Degrees: `deg` scatter-adds a one at every destination; `dis` is deg^(-1/2) where deg > 0 and 0
  elsewhere. One layer, from node features h: gather the rows of h at the (wrapped) sources, scale message e by
  dis[src e] · dis[dst e], scatter-add the messages at the destinations into zeros, add the bias on every row.
  The network is layer ∘ mm(·, W2) ∘ relu ∘ layer ∘ mm(·, W1) applied to x.
  Written with the reference program's own host operations, in its order, so that the reference's composed term is
  this function by unfolding, whatever the float family.
-/
import proofs.«135767_j65000035058075_1_alg».proof.ReferenceIdeal

noncomputable section

namespace Cert.Spec

open Cert.ReferenceIdeal Idealize.ShloMosaic Idealize.ShloMosaic.TcCoe
open Cert.ReferenceIdeal.Facts₀ Cert.ReferenceIdeal.Facts

variable {F : FTy → Type} [FloatOps F] [Cert.ReferenceIdeal.Facts]

/-- Row `r` (0: sources, 1: destinations) of the edge list, then the self-loops 0 … 49999. -/
def src (e : (⟨S2x640000, .i32⟩ : BufTy).Contents (Elt F)) : (⟨S690000, .i32⟩ : BufTy).Contents (Elt F) :=
  concatenate S690000 0 [⟨S640000, (shapeCast _ (extractStridedSlice S1x640000 ![0, 0] e slices_S2x640000_S1x640000_0_0) shapeCasts_S1x640000_S640000)⟩, ⟨S50000, (iotaInDim S50000 32 0)⟩] concatenates_S640000_S50000_S690000_d0

def dst (e : (⟨S2x640000, .i32⟩ : BufTy).Contents (Elt F)) : (⟨S690000, .i32⟩ : BufTy).Contents (Elt F) :=
  concatenate S690000 0 [⟨S640000, (shapeCast _ (extractStridedSlice S1x640000 ![1, 0] e slices_S2x640000_S1x640000_1_0) shapeCasts_S1x640000_S640000)⟩, ⟨S50000, (iotaInDim S50000 32 0)⟩] concatenates_S640000_S50000_S690000_d0

/-- In-degree with self-loops: a one added at every destination. -/
def deg (d : (⟨S690000, .i32⟩ : BufTy).Contents (Elt F)) : (⟨S50000, .f32⟩ : BufTy).Contents (Elt F) :=
  Host.scatterAdd scatter_S50000_S690000x1_S690000_n_0_0_1 (broadcastInDim S50000 ![] bcast_S_S50000 (constant S_ .f32 0x00000000#32)) (broadcastInDim S690000x1 ![0] bcast_S690000_S690000x1_0 d) (broadcastInDim S690000 ![] bcast_S_S690000 (constant S_ .f32 0x3F800000#32))

/-- deg^(-1/2) where the degree is positive, 0 elsewhere. -/
def dis (d : (⟨S690000, .i32⟩ : BufTy).Contents (Elt F)) : (⟨S50000, .f32⟩ : BufTy).Contents (Elt F) :=
  select (cmpf (F := F) .ogt (deg d) (broadcastInDim S50000 ![] bcast_S_S50000 (constant S_ .f32 0x00000000#32))) (Host.rsqrt (deg d)) (broadcastInDim S50000 ![] bcast_S_S50000 (id (constant S_ .f32 0x00000000#32)))

/-- A node index made non-negative the way jnp indexing does: a negative one has 50000 added. -/
def wrap (s : (⟨S690000, .i32⟩ : BufTy).Contents (Elt F)) : (⟨S690000, .i32⟩ : BufTy).Contents (Elt F) :=
  select (cmpi .slt s (broadcastInDim S690000 ![] bcast_S_S690000 (constantI S_ 32 0#32))) (addi s (broadcastInDim S690000 ![] bcast_S_S690000 (constantI S_ 32 50000#32))) s

/-- One layer's aggregation of node features `h` over the edges, plus the bias. -/
def layer (h : (⟨S50000x128, .f32⟩ : BufTy).Contents (Elt F)) (s d : (⟨S690000, .i32⟩ : BufTy).Contents (Elt F))
    (nrm : (⟨S50000, .f32⟩ : BufTy).Contents (Elt F)) (b : (⟨S128, .f32⟩ : BufTy).Contents (Elt F)) :
    (⟨S50000x128, .f32⟩ : BufTy).Contents (Elt F) :=
  addf (Host.scatterAdd scatter_S50000x128_S690000x1_S690000x128_1_0_0_1 (broadcastInDim S50000x128 ![] bcast_S_S50000x128 (constant S_ .f32 0x00000000#32)) (broadcastInDim S690000x1 ![0] bcast_S690000_S690000x1_0 d) (mulf (Host.gather gather_S50000x128_S690000x1_S690000x128_1_0_n_n_0_1_1128 h (broadcastInDim S690000x1 ![0] bcast_S690000_S690000x1_0 (wrap s))) (broadcastInDim S690000x128 ![0, 1] bcast_S690000x1_S690000x128_0_1 (broadcastInDim S690000x1 ![0] bcast_S690000_S690000x1_0 (mulf (Host.gather gather_S50000_S690000x1_S690000_n_0_n_n_0_1_1 nrm (broadcastInDim S690000x1 ![0] bcast_S690000_S690000x1_0 (wrap s))) (Host.gather gather_S50000_S690000x1_S690000_n_0_n_n_0_1_1 nrm (broadcastInDim S690000x1 ![0] bcast_S690000_S690000x1_0 (wrap d)))))))) (broadcastInDim S50000x128 ![0, 1] bcast_S1x128_S50000x128_0_1 (broadcastInDim S1x128 ![1] bcast_S128_S1x128_1 b))

/-- max(·, 0), entry by entry. -/
def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The two-layer network over a dense product `mm`. -/
def gcn (mm : (⟨S50000x128, .f32⟩ : BufTy).Contents (Elt F) → (⟨S128x128, .f32⟩ : BufTy).Contents (Elt F) → (⟨S50000x128, .f32⟩ : BufTy).Contents (Elt F))
    (x : (⟨S50000x128, .f32⟩ : BufTy).Contents (Elt F)) (e : (⟨S2x640000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S50000x128, .f32⟩ : BufTy).Contents (Elt F) :=
  layer (mm (relu (layer (mm x w1) (src e) (dst e) (dis (dst e)) b1)) w2) (src e) (dst e) (dis (dst e)) b2

end Cert.Spec

end
-- ==== Proof.HostValue.lean ====
/-
  The idealized kernel program's result, read back through its run.

  The run's buffer contents at the seven boundaries of @main are a fold (the generated `W0 … W7`): host operations
  rewrite the buffers they write; a region leaves its result array at what its blocks wrote and every other buffer
  as it found it. Read backwards from the result: the last stretch is one layer's aggregation of the second dense
  product; that product is rows-times-weight of relu of the first layer's output and W2; the first layer aggregates
  the first product, rows-times-weight of x and W1; sources, destinations and the normalisation are computed before
  the first region from the edge list alone and are carried unchanged through both regions.
  The host stretches are read at an arbitrary float family (they are the same operations whatever the family);
  only the two dense products are read at the ideal instance.
-/
import proofs.«135767_j65000035058075_1_alg».proof.Proof.Gen.KernelIdeal.Frame
import proofs.«135767_j65000035058075_1_alg».proof.Proof.Gen.ReferenceIdeal
import proofs.«135767_j65000035058075_1_alg».proof.Proof.MatBlock0
import proofs.«135767_j65000035058075_1_alg».proof.Proof.MatBlock1
import proofs.«135767_j65000035058075_1_alg».proof.Proof.Spec
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo
open Cert.Dense (rowsTimes)

section AnyFamily

variable {F : FTy → Type} [FloatOps F] (m : (ℓ : Loc nD τ sig) → Buf (Elt F) ℓ) (ρ : Dev nD → PrngReg) (c : Dev nD)

/-! ## Before the first region: the graph's index arrays and the normalisation, and the untouched arguments -/

theorem entry0_src : W2 m ρ c (Proc.devRef .tc main_v3) = Cert.Spec.src (m ((c.tc : Thread nD τ).loc main_arg1)) := by
  show StableHlo.after hostOps0_1 (StableHlo.after hostOps0 (W0 m ρ c)) (Proc.devRef .tc main_v3) = _
  simp only [hostOps0, hostOps0_1]
  after_results
  rfl

theorem entry0_dst : W2 m ρ c (Proc.devRef .tc main_v6) = Cert.Spec.dst (m ((c.tc : Thread nD τ).loc main_arg1)) := by
  show StableHlo.after hostOps0_1 (StableHlo.after hostOps0 (W0 m ρ c)) (Proc.devRef .tc main_v6) = _
  simp only [hostOps0, hostOps0_1]
  after_results
  rfl

set_option maxHeartbeats 1000000 in
theorem entry0_dis : W2 m ρ c (Proc.devRef .tc main_v14) = Cert.Spec.dis (Cert.Spec.dst (m ((c.tc : Thread nD τ).loc main_arg1))) := by
  show StableHlo.after hostOps0_1 (StableHlo.after hostOps0 (W0 m ρ c)) (Proc.devRef .tc main_v14) = _
  simp only [hostOps0, hostOps0_1]
  after_results
  rfl

theorem entry0_arg0 : W2 m ρ c (Proc.devRef .tc main_arg0) = m ((c.tc : Thread nD τ).loc main_arg0) := by
  show StableHlo.after hostOps0_1 (StableHlo.after hostOps0 (W0 m ρ c)) (Proc.devRef .tc main_arg0) = _
  simp only [hostOps0, hostOps0_1]
  after_results
theorem entry0_arg2 : W2 m ρ c (Proc.devRef .tc main_arg2) = m ((c.tc : Thread nD τ).loc main_arg2) := by
  show StableHlo.after hostOps0_1 (StableHlo.after hostOps0 (W0 m ρ c)) (Proc.devRef .tc main_arg2) = _
  simp only [hostOps0, hostOps0_1]
  after_results
theorem entry0_arg3 : W2 m ρ c (Proc.devRef .tc main_arg3) = m ((c.tc : Thread nD τ).loc main_arg3) := by
  show StableHlo.after hostOps0_1 (StableHlo.after hostOps0 (W0 m ρ c)) (Proc.devRef .tc main_arg3) = _
  simp only [hostOps0, hostOps0_1]
  after_results
theorem entry0_arg4 : W2 m ρ c (Proc.devRef .tc main_arg4) = m ((c.tc : Thread nD τ).loc main_arg4) := by
  show StableHlo.after hostOps0_1 (StableHlo.after hostOps0 (W0 m ρ c)) (Proc.devRef .tc main_arg4) = _
  simp only [hostOps0, hostOps0_1]
  after_results
theorem entry0_arg5 : W2 m ρ c (Proc.devRef .tc main_arg5) = m ((c.tc : Thread nD τ).loc main_arg5) := by
  show StableHlo.after hostOps0_1 (StableHlo.after hostOps0 (W0 m ρ c)) (Proc.devRef .tc main_arg5) = _
  simp only [hostOps0, hostOps0_1]
  after_results

/-! ## Across the first region: everything but its result is as it was -/

theorem exit0_src : W3 m ρ c (Proc.devRef .tc main_v3) = W2 m ρ c (Proc.devRef .tc main_v3) := W3_of_ne m ρ c main_v3 (by decide)
theorem exit0_dst : W3 m ρ c (Proc.devRef .tc main_v6) = W2 m ρ c (Proc.devRef .tc main_v6) := W3_of_ne m ρ c main_v6 (by decide)
theorem exit0_dis : W3 m ρ c (Proc.devRef .tc main_v14) = W2 m ρ c (Proc.devRef .tc main_v14) := W3_of_ne m ρ c main_v14 (by decide)
theorem exit0_arg3 : W3 m ρ c (Proc.devRef .tc main_arg3) = W2 m ρ c (Proc.devRef .tc main_arg3) := W3_of_ne m ρ c main_arg3 (by decide)
theorem exit0_arg4 : W3 m ρ c (Proc.devRef .tc main_arg4) = W2 m ρ c (Proc.devRef .tc main_arg4) := W3_of_ne m ρ c main_arg4 (by decide)
theorem exit0_arg5 : W3 m ρ c (Proc.devRef .tc main_arg5) = W2 m ρ c (Proc.devRef .tc main_arg5) := W3_of_ne m ρ c main_arg5 (by decide)

/-! ## Before the second region: the first layer, then relu -/

theorem entry1_hidden : W5 m ρ c (Proc.devRef .tc main_v47)
    = Cert.Spec.relu (Cert.Spec.layer (W3 m ρ c (Proc.devRef .tc main_v15)) (W3 m ρ c (Proc.devRef .tc main_v3))
        (W3 m ρ c (Proc.devRef .tc main_v6)) (W3 m ρ c (Proc.devRef .tc main_v14)) (W3 m ρ c (Proc.devRef .tc main_arg3))) := by
  show StableHlo.after hostOps1_1 (StableHlo.after hostOps1 (W3 m ρ c)) (Proc.devRef .tc main_v47) = _
  simp only [hostOps1, hostOps1_1]
  after_results_simp
  rfl

theorem entry1_src : W5 m ρ c (Proc.devRef .tc main_v3) = W3 m ρ c (Proc.devRef .tc main_v3) := by
  show StableHlo.after hostOps1_1 (StableHlo.after hostOps1 (W3 m ρ c)) (Proc.devRef .tc main_v3) = _
  simp only [hostOps1, hostOps1_1]
  after_results_simp
theorem entry1_dst : W5 m ρ c (Proc.devRef .tc main_v6) = W3 m ρ c (Proc.devRef .tc main_v6) := by
  show StableHlo.after hostOps1_1 (StableHlo.after hostOps1 (W3 m ρ c)) (Proc.devRef .tc main_v6) = _
  simp only [hostOps1, hostOps1_1]
  after_results_simp
theorem entry1_dis : W5 m ρ c (Proc.devRef .tc main_v14) = W3 m ρ c (Proc.devRef .tc main_v14) := by
  show StableHlo.after hostOps1_1 (StableHlo.after hostOps1 (W3 m ρ c)) (Proc.devRef .tc main_v14) = _
  simp only [hostOps1, hostOps1_1]
  after_results_simp
theorem entry1_arg4 : W5 m ρ c (Proc.devRef .tc main_arg4) = W3 m ρ c (Proc.devRef .tc main_arg4) := by
  show StableHlo.after hostOps1_1 (StableHlo.after hostOps1 (W3 m ρ c)) (Proc.devRef .tc main_arg4) = _
  simp only [hostOps1, hostOps1_1]
  after_results_simp
theorem entry1_arg5 : W5 m ρ c (Proc.devRef .tc main_arg5) = W3 m ρ c (Proc.devRef .tc main_arg5) := by
  show StableHlo.after hostOps1_1 (StableHlo.after hostOps1 (W3 m ρ c)) (Proc.devRef .tc main_arg5) = _
  simp only [hostOps1, hostOps1_1]
  after_results_simp

/-! ## Across the second region: everything but its result is as it was -/

theorem exit1_src : W6 m ρ c (Proc.devRef .tc main_v3) = W5 m ρ c (Proc.devRef .tc main_v3) := W6_of_ne m ρ c main_v3 (by decide)
theorem exit1_dst : W6 m ρ c (Proc.devRef .tc main_v6) = W5 m ρ c (Proc.devRef .tc main_v6) := W6_of_ne m ρ c main_v6 (by decide)
theorem exit1_dis : W6 m ρ c (Proc.devRef .tc main_v14) = W5 m ρ c (Proc.devRef .tc main_v14) := W6_of_ne m ρ c main_v14 (by decide)
theorem exit1_arg5 : W6 m ρ c (Proc.devRef .tc main_arg5) = W5 m ρ c (Proc.devRef .tc main_arg5) := W6_of_ne m ρ c main_arg5 (by decide)

/-! ## The last stretch: the second layer -/

theorem result_layer : W7 m ρ c (Proc.devRef .tc main_v79)
    = Cert.Spec.layer (W6 m ρ c (Proc.devRef .tc main_v48)) (W6 m ρ c (Proc.devRef .tc main_v3))
        (W6 m ρ c (Proc.devRef .tc main_v6)) (W6 m ρ c (Proc.devRef .tc main_v14)) (W6 m ρ c (Proc.devRef .tc main_arg5)) := by
  show StableHlo.after hostOps2 (W6 m ρ c) (Proc.devRef .tc main_v79) = _
  simp only [hostOps2]
  after_results_simp
  rfl

end AnyFamily

section AtIdeal

variable (m : (ℓ : Loc nD τ sig) → Buf (Elt Ideal) ℓ) (ρ : Dev nD → PrngReg) (c : Dev nD)

/-! ## The two regions' results: rows-times-weight -/

theorem exit0_product : W3 m ρ c (Proc.devRef .tc main_v15) = rowsTimes (m ((c.tc : Thread nD τ).loc main_arg0)) (m ((c.tc : Thread nD τ).loc main_arg2)) := by
  refine (W3_arr m ρ c 2).trans ((Cert.KernelIdeal.Dense0.product_array (V2 m ρ) c).trans ?_)
  show rowsTimes (W2 m ρ c (Proc.devRef .tc main_arg0)) (W2 m ρ c (Proc.devRef .tc main_arg2)) = _
  rw [entry0_arg0, entry0_arg2]

theorem exit1_product : W6 m ρ c (Proc.devRef .tc main_v48) = rowsTimes (W5 m ρ c (Proc.devRef .tc main_v47)) (W5 m ρ c (Proc.devRef .tc main_arg4)) :=
  (W6_arr m ρ c 2).trans (Cert.KernelIdeal.Dense1.product_array (V5 m ρ) c)

/-! ## The result is the network over rows-times-weight -/

theorem result_eq : W7 m ρ c (Proc.devRef .tc main_v79)
    = Cert.Spec.gcn (F := Ideal) rowsTimes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [result_layer, exit1_product, exit1_src, exit1_dst, exit1_dis, exit1_arg5,
    entry1_hidden, entry1_src, entry1_dst, entry1_dis, entry1_arg4, entry1_arg5,
    exit0_product, exit0_src, exit0_dst, exit0_dis, exit0_arg3, exit0_arg4, exit0_arg5,
    entry0_src, entry0_dst, entry0_dis, entry0_arg3, entry0_arg4, entry0_arg5]
  rfl

end AtIdeal

end Cert.KernelIdeal.HostValue

end
-- ==== Proof.RefValue.lean ====
/-
  The idealized reference's result as the network over rows-times-weight.

  Its run ends with every buffer at the fold of its host operations over the launch contents. Read backwards from the
  result, stretch by stretch: the last stretch is the host's dense product of the hidden features with W2 and one layer's
  aggregation of it; the hidden features are relu of the first layer, which aggregates the host's dense product of x
  with W1; sources, destinations and the normalisation come from the edge list alone. That is the network `Cert.Spec.gcn`
  over the host's `dot_general`, whatever the float family; and at the ideal instance the host's `dot_general` of a
  50000 × 128 array with a 128 × 128 one, contracting the left's columns with the right's rows, is rows-times-weight:
  entry (r, q) is the sum over the one contracted axis of X(r, k) · W(k, q).
-/
import proofs.«135767_j65000035058075_1_alg».proof.Proof.RefRun
import proofs.«135767_j65000035058075_1_alg».proof.Proof.Spec
import proofs.«135767_j65000035058075_1_alg».proof.Proof.RowsTimes
import Idealize.ShloMosaic.Lib.Pipeline.Frame
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ValueP Idealize.ShloMosaic Idealize.ShloMosaic.TcCoe Idealize.SL.Sem
open Idealize.ShloMosaic.StableHlo
open Idealize.ShloMosaic.ValueIdx
open Cert.Dense (rowsTimes)

/-! ## The host's dense product at an index -/

/-- The left operand's index keeps the output's row … -/
theorem lhs_row (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- … and runs over the contracted axis in its column; -/
theorem lhs_col (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- the right operand's index runs over the contracted axis in its row … -/
theorem rhs_row (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- … and keeps the output's column. -/
theorem rhs_col (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- At the ideal instance the host's dense product is rows-times-weight. -/
theorem dot_eq_rowsTimes (x : FVec Ideal S50000x128 .f32) (w : FVec Ideal S128x128 .f32) :
    Host.dotGeneral (F := Ideal) dot_S50000x128_S128x128_S50000x128_1_0_0_1_n_n none x w = rowsTimes x w := by
  funext i
  simp only [Host.dotGeneral]
  rw [Ideal.dotGeneral_apply, ← Equiv.sum_comp (contrEquiv1 dot_S50000x128_S128x128_S50000x128_1_0_0_1_n_n 128 rfl rfl).symm]
  unfold rowsTimes
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k)
      = ix2 (n0 := 50000) (n1 := 128) ⟨(i 0).val, (i 0).isLt⟩ k := funext fun a => Fin.ext (by
    match a with
    | ⟨0, _⟩ => exact lhs_row _ _
    | ⟨1, _⟩ => exact (lhs_col _ _).trans hk)
  have er : dot_S50000x128_S128x128_S50000x128_1_0_0_1_n_n.rhsIdx i ((contrEquiv1 dot_S50000x128_S128x128_S50000x128_1_0_0_1_n_n 128 rfl rfl).symm k)
      = ix2 (n0 := 128) (n1 := 128) k ⟨(i 1).val, (i 1).isLt⟩ := funext fun a => Fin.ext (by
    match a with
    | ⟨0, _⟩ => exact (rhs_row _ _).trans hk
    | ⟨1, _⟩ => exact rhs_col _ _)
  rw [el, er]

/-! ## The fold, stretch by stretch, whatever the float family -/

section Fold

variable {F : FTy → Type} [FloatOps F] (m : (ℓ : Loc nD τ sig) → Buf (Elt F) ℓ) (c : Dev nD)

/-- The host's dense product as the network's parameter. -/
abbrev hostDot : (⟨S50000x128, .f32⟩ : BufTy).Contents (Elt F) → (⟨S128x128, .f32⟩ : BufTy).Contents (Elt F) → (⟨S50000x128, .f32⟩ : BufTy).Contents (Elt F) :=
  fun l r => Host.dotGeneral dot_S50000x128_S128x128_S50000x128_1_0_0_1_n_n none l r

/-! ### The first stretch: the index arrays, the normalisation; the arguments untouched -/

theorem first_src : after opsA (launchContents m c) (Proc.devRef .tc main_v3) = Cert.Spec.src (m ((c.tc : Thread nD τ).loc main_arg1)) := by
  simp only [opsA]; after_results; rfl
theorem first_dst : after opsA (launchContents m c) (Proc.devRef .tc main_v6) = Cert.Spec.dst (m ((c.tc : Thread nD τ).loc main_arg1)) := by
  simp only [opsA]; after_results; rfl
set_option maxHeartbeats 1000000 in
theorem first_dis : after opsA (launchContents m c) (Proc.devRef .tc main_v14) = Cert.Spec.dis (Cert.Spec.dst (m ((c.tc : Thread nD τ).loc main_arg1))) := by
  simp only [opsA]; after_results; rfl
theorem first_arg0 : after opsA (launchContents m c) (Proc.devRef .tc main_arg0) = m ((c.tc : Thread nD τ).loc main_arg0) := by
  simp only [opsA]; after_results
theorem first_arg2 : after opsA (launchContents m c) (Proc.devRef .tc main_arg2) = m ((c.tc : Thread nD τ).loc main_arg2) := by
  simp only [opsA]; after_results
theorem first_arg3 : after opsA (launchContents m c) (Proc.devRef .tc main_arg3) = m ((c.tc : Thread nD τ).loc main_arg3) := by
  simp only [opsA]; after_results
theorem first_arg4 : after opsA (launchContents m c) (Proc.devRef .tc main_arg4) = m ((c.tc : Thread nD τ).loc main_arg4) := by
  simp only [opsA]; after_results
theorem first_arg5 : after opsA (launchContents m c) (Proc.devRef .tc main_arg5) = m ((c.tc : Thread nD τ).loc main_arg5) := by
  simp only [opsA]; after_results

/-! ### The second stretch, from any contents `V`: the first product, the first layer, relu -/

theorem second_hidden (V : Valuation τ sig (Elt F)) : after opsB V (Proc.devRef .tc main_v47)
    = Cert.Spec.relu (Cert.Spec.layer (hostDot (V (Proc.devRef .tc main_arg0)) (V (Proc.devRef .tc main_arg2))) (V (Proc.devRef .tc main_v3)) (V (Proc.devRef .tc main_v6))
        (V (Proc.devRef .tc main_v14)) (V (Proc.devRef .tc main_arg3))) := by
  simp only [opsB]
  after_results_simp
  rfl
theorem second_src (V : Valuation τ sig (Elt F)) : after opsB V (Proc.devRef .tc main_v3) = V (Proc.devRef .tc main_v3) := by
  simp only [opsB]
  after_results_simp
theorem second_dst (V : Valuation τ sig (Elt F)) : after opsB V (Proc.devRef .tc main_v6) = V (Proc.devRef .tc main_v6) := by
  simp only [opsB]
  after_results_simp
theorem second_dis (V : Valuation τ sig (Elt F)) : after opsB V (Proc.devRef .tc main_v14) = V (Proc.devRef .tc main_v14) := by
  simp only [opsB]
  after_results_simp
theorem second_arg4 (V : Valuation τ sig (Elt F)) : after opsB V (Proc.devRef .tc main_arg4) = V (Proc.devRef .tc main_arg4) := by
  simp only [opsB]
  after_results_simp
theorem second_arg5 (V : Valuation τ sig (Elt F)) : after opsB V (Proc.devRef .tc main_arg5) = V (Proc.devRef .tc main_arg5) := by
  simp only [opsB]
  after_results_simp

/-! ### The third stretch, from any contents `V`: the second product, the second layer -/

theorem third_result (V : Valuation τ sig (Elt F)) : after opsC V (Proc.devRef .tc main_v79)
    = Cert.Spec.layer (hostDot (V (Proc.devRef .tc main_v47)) (V (Proc.devRef .tc main_arg4))) (V (Proc.devRef .tc main_v3)) (V (Proc.devRef .tc main_v6)) (V (Proc.devRef .tc main_v14)) (V (Proc.devRef .tc main_arg5)) := by
  simp only [opsC]
  after_results_simp
  rfl

/-- The fold over the whole list at the result buffer: the network over the host's dense product. -/
theorem fold_result : after ops (launchContents m c) (Proc.devRef .tc main_v79)
    = Cert.Spec.gcn hostDot (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split, StableHlo.after_append, StableHlo.after_append, third_result, second_hidden, second_src, second_dst, second_dis,
    second_arg4, second_arg5, first_src, first_dst, first_dis, first_arg0, first_arg2, first_arg3, first_arg4, first_arg5]
  rfl

theorem fold_arg0 : after ops (launchContents m c) (Proc.devRef .tc main_arg0) = m ((c.tc : Thread nD τ).loc main_arg0) := by
  simp only [ops]; after_results_simp
theorem fold_arg1 : after ops (launchContents m c) (Proc.devRef .tc main_arg1) = m ((c.tc : Thread nD τ).loc main_arg1) := by
  simp only [ops]; after_results_simp
theorem fold_arg2 : after ops (launchContents m c) (Proc.devRef .tc main_arg2) = m ((c.tc : Thread nD τ).loc main_arg2) := by
  simp only [ops]; after_results_simp
theorem fold_arg3 : after ops (launchContents m c) (Proc.devRef .tc main_arg3) = m ((c.tc : Thread nD τ).loc main_arg3) := by
  simp only [ops]; after_results_simp
theorem fold_arg4 : after ops (launchContents m c) (Proc.devRef .tc main_arg4) = m ((c.tc : Thread nD τ).loc main_arg4) := by
  simp only [ops]; after_results_simp
theorem fold_arg5 : after ops (launchContents m c) (Proc.devRef .tc main_arg5) = m ((c.tc : Thread nD τ).loc main_arg5) := by
  simp only [ops]; after_results_simp

end Fold

/-! ## The run, read -/

/-- Every weakly fair execution of the reference ends with the result at the network over rows-times-weight of the
    argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79)
        = Cert.Spec.gcn (F := Ideal) rowsTimes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c main_v79).trans (fold_result m c)).trans
        (congrArg (fun mm => Cert.Spec.gcn (F := Ideal) mm _ _ _ _ _ _) (funext fun l => funext fun r => dot_eq_rowsTimes l r)),
      (h c main_arg0).trans (fold_arg0 m c), (h c main_arg1).trans (fold_arg1 m c), (h c main_arg2).trans (fold_arg2 m c),
      (h c main_arg3).trans (fold_arg3 m c), (h c main_arg4).trans (fold_arg4 m c), (h c main_arg5).trans (fold_arg5 m c)⟩)
    (run_fold (F := Ideal) m ρ)

end Cert.ReferenceIdeal.RefValue

end
-- ==== Proof.lean ====
/-
  A two-layer graph convolution over 50000 nodes and 640000 edges plus self-loops: the kernel program computes its two
  dense products (x · W1 and relu(layer 1) · W2) as pipelined regions of five row blocks each, multiplying in bf16-narrowed
  operands with an f32 accumulator, and everything else (degrees, normalisation, gather, scale, scatter-add, bias, relu)
  as host operations; the reference computes the same host operations around the host's own dense product.

  On the extended reals the narrowing is the identity and both dense products are rows-times-weight, entry (r, q) the sum
  over k of X(r, k) · W(k, q); the host operations around them are the same in both programs, in the same order. So both
  results are the one function `Cert.Spec.gcn rowsTimes` of the six argument arrays: no law beyond reading the two
  products as one sum is needed, and the finiteness precondition is never opened.

  The three frames are the generated frame certificates (the reference's is its run with the result dropped); the ideal
  pass rewrote nothing, so `preserves` is trivial.
-/
import proofs.«135767_j65000035058075_1_alg».proof.Defs
import proofs.«135767_j65000035058075_1_alg».proof.Proof.Gen.Kernel
import proofs.«135767_j65000035058075_1_alg».proof.Proof.Gen.Kernel.Frame
import proofs.«135767_j65000035058075_1_alg».proof.Proof.Gen.KernelIdeal
import proofs.«135767_j65000035058075_1_alg».proof.Proof.Gen.KernelIdeal.Frame
import proofs.«135767_j65000035058075_1_alg».proof.Proof.Gen.ReferenceIdeal
import proofs.«135767_j65000035058075_1_alg».proof.Proof.Gen.Pre_finite_inputs
import proofs.«135767_j65000035058075_1_alg».proof.Proof.KernelLaunch
import proofs.«135767_j65000035058075_1_alg».proof.Proof.HostValue
import proofs.«135767_j65000035058075_1_alg».proof.Proof.RefValue
import Idealize.ShloMosaic.Adequacy
import Idealize.ShloMosaic.Init

noncomputable section

namespace Cert.Proof

open Idealize.ShloMosaic Idealize.ShloMosaic.TcCoe Idealize.SL.Sem
open Cert.Dense (rowsTimes)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- Both runs end with the result at the network over rows-times-weight of arguments that agree. -/
theorem algebraic : Cert.algebraic_KernelIdeal_ReferenceIdeal := by
  intro m ρ m' ρ' _ hagree
  refine ⟨fun c => Cert.Spec.gcn (F := Ideal) rowsTimes
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostValue.result_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
